-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel

variable [Facts]

def fn {F : FTy → Type} [FloatOps F] (main_arg0 : FVec F S16384x32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  main_v3
-- ==== Kernel.lean ====
abbrev S16384x32 : Shape := ⟨2, ![16384, 32]⟩
abbrev S16384x4096 : Shape := ⟨2, ![16384, 4096]⟩
abbrev S256x32 : Shape := ⟨2, ![256, 32]⟩
abbrev S256x4096 : Shape := ⟨2, ![256, 4096]⟩
abbrev S256x8 : Shape := ⟨2, ![256, 8]⟩
abbrev S256x1 : Shape := ⟨2, ![256, 1]⟩
abbrev S256x64 : Shape := ⟨2, ![256, 64]⟩
abbrev S256x512 : Shape := ⟨2, ![256, 512]⟩

abbrev nBuf : Space → Nat
  | .hbm => 2
  | .vmem => 4
  | .smem => 0
  | _ => 0

abbrev bufTy : (tb : Table) → Fin (tcTables nBuf tb) → BufTy
  | .hbm, ⟨0, _⟩ => ⟨S16384x32, .f32⟩
  | .hbm, ⟨1, _⟩ => ⟨S16384x4096, .f32⟩
  | .local _ .vmem, ⟨0, _⟩ => ⟨S256x32, .f32⟩
  | .local _ .vmem, ⟨1, _⟩ => ⟨S256x32, .f32⟩
  | .local _ .vmem, ⟨2, _⟩ => ⟨S256x4096, .f32⟩
  | .local _ .vmem, ⟨3, _⟩ => ⟨S256x4096, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x32_S256x32_0_0 : ∀ a, (![0, 0] : Fin 2 → Nat) a + S256x32.size a ≤ S256x32.size a
  h_S256x32 : 0 < S256x32.numel
  slices_S256x32_o0_0_S256x8 : S256x32.Slices ![0, 0] S256x8
  slices_S256x32_o0_8_S256x8 : S256x32.Slices ![0, 8] S256x8
  slices_S256x32_o0_16_S256x8 : S256x32.Slices ![0, 16] S256x8
  slices_S256x32_o0_24_S256x8 : S256x32.Slices ![0, 24] S256x8
  slices_S256x8_o0_0_S256x1 : S256x8.Slices ![0, 0] S256x1
  broadcasts_S256x1_S256x8 : S256x1.Broadcasts S256x8
  slices_S256x8_o0_1_S256x1 : S256x8.Slices ![0, 1] S256x1
  slices_S256x8_o0_2_S256x1 : S256x8.Slices ![0, 2] S256x1
  slices_S256x8_o0_3_S256x1 : S256x8.Slices ![0, 3] S256x1
  slices_S256x8_o0_4_S256x1 : S256x8.Slices ![0, 4] S256x1
  slices_S256x8_o0_5_S256x1 : S256x8.Slices ![0, 5] S256x1
  slices_S256x8_o0_6_S256x1 : S256x8.Slices ![0, 6] S256x1
  slices_S256x8_o0_7_S256x1 : S256x8.Slices ![0, 7] S256x1
  concatenates_S256x8_S256x8_S256x8_S256x8_S256x8_S256x8_S256x8_S256x8_S256x64_d1 : Shape.Concatenates [S256x8, S256x8, S256x8, S256x8, S256x8, S256x8, S256x8, S256x8] S256x64 1
  broadcasts_S256x1_S256x64 : S256x1.Broadcasts S256x64
  concatenates_S256x64_S256x64_S256x64_S256x64_S256x64_S256x64_S256x64_S256x64_S256x512_d1 : Shape.Concatenates [S256x64, S256x64, S256x64, S256x64, S256x64, S256x64, S256x64, S256x64] S256x512 1
  broadcasts_S256x1_S256x512 : S256x1.Broadcasts S256x512
  concatenates_S256x512_S256x512_S256x512_S256x512_S256x512_S256x512_S256x512_S256x512_S256x4096_d1 : Shape.Concatenates [S256x512, S256x512, S256x512, S256x512, S256x512, S256x512, S256x512, S256x512] S256x4096 1
  inb_S256x4096_S256x4096_0_0 : ∀ a, (![0, 0] : Fin 2 → Nat) a + S256x4096.size a ≤ S256x4096.size a
  h_S256x4096 : 0 < S256x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S16384x32.size a
  hwx0_0 : ∀ i : grid0.Coords, EltTy.bits .f32 = 32 ∨ (Rect.block (s := S16384x32) S256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)

variable [Facts₀]

abbrev win0_0 : Pipeline.Window sig grid0 :=
  Pipeline.Window.ofSpec (Memref.whole main_arg0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x32 : Shape := ⟨2, ![16384, 32]⟩
abbrev S16384x4x8 : Shape := ⟨3, ![16384, 4, 8]⟩
abbrev S16384x1x8 : Shape := ⟨3, ![16384, 1, 8]⟩
abbrev S16384x8 : Shape := ⟨2, ![16384, 8]⟩
abbrev S16384x8x1 : Shape := ⟨3, ![16384, 8, 1]⟩
abbrev S16384x8x8 : Shape := ⟨3, ![16384, 8, 8]⟩
abbrev S16384x64 : Shape := ⟨2, ![16384, 64]⟩
abbrev S16384x64x1 : Shape := ⟨3, ![16384, 64, 1]⟩
abbrev S16384x64x8 : Shape := ⟨3, ![16384, 64, 8]⟩
abbrev S16384x512 : Shape := ⟨2, ![16384, 512]⟩
abbrev S16384x512x1 : Shape := ⟨3, ![16384, 512, 1]⟩
abbrev S16384x512x8 : Shape := ⟨3, ![16384, 512, 8]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x4x8, .f32⟩
  | .hbm, ⟨2, _⟩ => ⟨S16384x1x8, .f32⟩
  | .hbm, ⟨3, _⟩ => ⟨S16384x8, .f32⟩
  | .hbm, ⟨4, _⟩ => ⟨S16384x8x1, .f32⟩
  | .hbm, ⟨5, _⟩ => ⟨S16384x1x8, .f32⟩
  | .hbm, ⟨6, _⟩ => ⟨S16384x8, .f32⟩
  | .hbm, ⟨7, _⟩ => ⟨S16384x1x8, .f32⟩
  | .hbm, ⟨8, _⟩ => ⟨S16384x8x8, .f32⟩
  | .hbm, ⟨9, _⟩ => ⟨S16384x8x8, .f32⟩
  | .hbm, ⟨10, _⟩ => ⟨S16384x8x8, .f32⟩
  | .hbm, ⟨11, _⟩ => ⟨S16384x64, .f32⟩
  | .hbm, ⟨12, _⟩ => ⟨S16384x64x1, .f32⟩
  | .hbm, ⟨13, _⟩ => ⟨S16384x1x8, .f32⟩
  | .hbm, ⟨14, _⟩ => ⟨S16384x8, .f32⟩
  | .hbm, ⟨15, _⟩ => ⟨S16384x1x8, .f32⟩
  | .hbm, ⟨16, _⟩ => ⟨S16384x64x8, .f32⟩
  | .hbm, ⟨17, _⟩ => ⟨S16384x64x8, .f32⟩
  | .hbm, ⟨18, _⟩ => ⟨S16384x64x8, .f32⟩
  | .hbm, ⟨19, _⟩ => ⟨S16384x512, .f32⟩
  | .hbm, ⟨20, _⟩ => ⟨S16384x512x1, .f32⟩
  | .hbm, ⟨21, _⟩ => ⟨S16384x1x8, .f32⟩
  | .hbm, ⟨22, _⟩ => ⟨S16384x8, .f32⟩
  | .hbm, ⟨23, _⟩ => ⟨S16384x1x8, .f32⟩
  | .hbm, ⟨24, _⟩ => ⟨S16384x512x8, .f32⟩
  | .hbm, ⟨25, _⟩ => ⟨S16384x512x8, .f32⟩
  | .hbm, ⟨26, _⟩ => ⟨S16384x512x8, .f32⟩
  | .hbm, ⟨27, _⟩ => ⟨S16384x4096, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩

abbrev nD : Nat := 1
abbrev τ : Topo := Topo.v7x

variable {F : FTy → Type} [FloatOps F]

class Facts₀ : Prop where
  shapeCasts_S16384x32_S16384x4x8 : S16384x32.ShapeCasts S16384x4x8
  slices_S16384x4x8_S16384x1x8_0_0_0 : S16384x4x8.Slices ![0, 0, 0] S16384x1x8
  shapeCasts_S16384x1x8_S16384x8 : S16384x1x8.ShapeCasts S16384x8
  bcast_S16384x8_S16384x8x1_0_1 : S16384x8.BroadcastsInDim S16384x8x1 (![0, 1] : Fin 2 → Fin S16384x8x1.rank)
  slices_S16384x4x8_S16384x1x8_0_1_0 : S16384x4x8.Slices ![0, 1, 0] S16384x1x8
  bcast_S16384x8_S16384x1x8_0_2 : S16384x8.BroadcastsInDim S16384x1x8 (![0, 2] : Fin 2 → Fin S16384x1x8.rank)
  bcast_S16384x8x1_S16384x8x8_0_1_2 : S16384x8x1.BroadcastsInDim S16384x8x8 (![0, 1, 2] : Fin 3 → Fin S16384x8x8.rank)
  bcast_S16384x1x8_S16384x8x8_0_1_2 : S16384x1x8.BroadcastsInDim S16384x8x8 (![0, 1, 2] : Fin 3 → Fin S16384x8x8.rank)
  shapeCasts_S16384x8x8_S16384x64 : S16384x8x8.ShapeCasts S16384x64
  bcast_S16384x64_S16384x64x1_0_1 : S16384x64.BroadcastsInDim S16384x64x1 (![0, 1] : Fin 2 → Fin S16384x64x1.rank)
  slices_S16384x4x8_S16384x1x8_0_2_0 : S16384x4x8.Slices ![0, 2, 0] S16384x1x8
  bcast_S16384x64x1_S16384x64x8_0_1_2 : S16384x64x1.BroadcastsInDim S16384x64x8 (![0, 1, 2] : Fin 3 → Fin S16384x64x8.rank)
  bcast_S16384x1x8_S16384x64x8_0_1_2 : S16384x1x8.BroadcastsInDim S16384x64x8 (![0, 1, 2] : Fin 3 → Fin S16384x64x8.rank)
  shapeCasts_S16384x64x8_S16384x512 : S16384x64x8.ShapeCasts S16384x512
  bcast_S16384x512_S16384x512x1_0_1 : S16384x512.BroadcastsInDim S16384x512x1 (![0, 1] : Fin 2 → Fin S16384x512x1.rank)
  slices_S16384x4x8_S16384x1x8_0_3_0 : S16384x4x8.Slices ![0, 3, 0] S16384x1x8
  bcast_S16384x512x1_S16384x512x8_0_1_2 : S16384x512x1.BroadcastsInDim S16384x512x8 (![0, 1, 2] : Fin 3 → Fin S16384x512x8.rank)
  bcast_S16384x1x8_S16384x512x8_0_1_2 : S16384x1x8.BroadcastsInDim S16384x512x8 (![0, 1, 2] : Fin 3 → Fin S16384x512x8.rank)
  shapeCasts_S16384x512x8_S16384x4096 : S16384x512x8.ShapeCasts S16384x4096

variable [Facts₀]

class Facts : Prop extends Facts₀ where

variable [Facts]
-- ==== Proof.LibOuterColumns.lean ====
/-
  A matrix built by an "outer" step, read at an index.

  Given a matrix `small` with eight columns and a matrix `big` with `W` columns over the same `R` rows, take for each
  column `n` of `small` the matrix whose entry `(r, q)` is `small (r, n) * big (r, q)` (the column stretched along the
  row, times `big`), and lay the eight results side by side along the columns. The result has `8 * W` columns, and its
  entry `(r, j)` is `small (r, j / W) * big (r, j % W)`: the column block `j / W` says which column of `small` was used, the
  position `j % W` inside the block says which column of `big`. Applied three times this is the flattened Cartesian product
  of four groups of eight numbers, the last group varying fastest.

  Everything is at the ideal instance: entries are extended reals and `mulf` is their product.
-/
import Idealize.ShloMosaic.Lib.Pipeline.Value
import Idealize.ShloMosaic.Lib.ValueIdx
import Idealize.ShloMosaic.PureOps.Ideal

noncomputable section

namespace Idealize.ShloMosaic.OuterColumns

open Idealize.ShloMosaic Idealize.ShloMosaic.ValueIdx

/-- A block of consecutive columns of a matrix, read at an index: column `n` of the block starting at column `off` is
    column `off + n` of the matrix. -/
theorem columns_apply {R C K : Nat} (off : Nat) (x : (⟨2, ![R, C]⟩ : Shape).Idx → EReal)
    (h : (⟨2, ![R, C]⟩ : Shape).Slices ![0, off] ⟨2, ![R, K]⟩) (r : Fin R) (n : Fin K) (b : Fin C)
    (hb : b.val = off + n.val) :
    extractStridedSlice (⟨2, ![R, K]⟩ : Shape) ![0, off] x h (ix2 r n) = x (ix2 r b) :=
  extractStridedSlice_apply ![0, off] x h (ix2 r n) (ix2 r b) fun a => match a with
    | ⟨0, _⟩ => by show r.val = 0 + r.val; omega
    | ⟨1, _⟩ => by show b.val = off + n.val; exact hb

/-- One column of `small`, stretched along the row and multiplied into `big`: entry `(r, q)` is
    `small (r, n) * big (r, q)`. -/
theorem scaled_apply {W : Nat} (small : FVec Ideal (⟨2, ![256, 8]⟩ : Shape) .f32) (big : FVec Ideal (⟨2, ![256, W]⟩ : Shape) .f32)
    (n : Fin 8) (hs : (⟨2, ![256, 8]⟩ : Shape).Slices ![0, n.val] ⟨2, ![256, 1]⟩)
    (hb : (⟨2, ![256, 1]⟩ : Shape).Broadcasts ⟨2, ![256, W]⟩) (r : Fin 256) (q : Fin W) :
    mulf (broadcastTo (⟨2, ![256, W]⟩ : Shape) (extractStridedSlice (⟨2, ![256, 1]⟩ : Shape) ![0, n.val] small hs) hb) big (ix2 r q)
      = (small (ix2 r n) : EReal) * big (ix2 r q) := by
  rw [mulf_apply]
  congr 1
  refine (broadcastTo_apply _ hb (ix2 r q) (ix2 r (0 : Fin 1)) fun a => ?_).trans ?_
  · match a with
    | ⟨0, _⟩ => show r.val = if (256 : Nat) = 1 then 0 else r.val; rw [if_neg (by decide)]
    | ⟨1, _⟩ => show 0 = if (1 : Nat) = 1 then 0 else q.val; rw [if_pos rfl]
  · exact columns_apply n.val small hs r (0 : Fin 1) n (by show n.val = n.val + 0; omega)

/-- THE OUTER STEP: the eight column-scaled copies of `big` laid side by side, read at `(r, j)`: the copy is the one of
    column `a = j / W` of `small`, read at column `b = j % W` of `big`. -/
theorem outer_apply (W T : Nat) (hT : T = 8 * W)
    (small : FVec Ideal (⟨2, ![256, 8]⟩ : Shape) .f32) (big : FVec Ideal (⟨2, ![256, W]⟩ : Shape) .f32)
    (h0 : (⟨2, ![256, 8]⟩ : Shape).Slices ![0, 0] ⟨2, ![256, 1]⟩) (h1 : (⟨2, ![256, 8]⟩ : Shape).Slices ![0, 1] ⟨2, ![256, 1]⟩)
    (h2 : (⟨2, ![256, 8]⟩ : Shape).Slices ![0, 2] ⟨2, ![256, 1]⟩) (h3 : (⟨2, ![256, 8]⟩ : Shape).Slices ![0, 3] ⟨2, ![256, 1]⟩)
    (h4 : (⟨2, ![256, 8]⟩ : Shape).Slices ![0, 4] ⟨2, ![256, 1]⟩) (h5 : (⟨2, ![256, 8]⟩ : Shape).Slices ![0, 5] ⟨2, ![256, 1]⟩)
    (h6 : (⟨2, ![256, 8]⟩ : Shape).Slices ![0, 6] ⟨2, ![256, 1]⟩) (h7 : (⟨2, ![256, 8]⟩ : Shape).Slices ![0, 7] ⟨2, ![256, 1]⟩)
    (hb : (⟨2, ![256, 1]⟩ : Shape).Broadcasts ⟨2, ![256, W]⟩)
    (hc : Shape.Concatenates [⟨2, ![256, W]⟩, ⟨2, ![256, W]⟩, ⟨2, ![256, W]⟩, ⟨2, ![256, W]⟩, ⟨2, ![256, W]⟩, ⟨2, ![256, W]⟩,
      ⟨2, ![256, W]⟩, ⟨2, ![256, W]⟩] (⟨2, ![256, T]⟩ : Shape) 1)
    (r : Fin 256) (j : Fin T) (a : Fin 8) (b : Fin W) (ha : j.val / W = a.val) (hb' : b.val = j.val % W) :
    concatenate (⟨2, ![256, T]⟩ : Shape) 1
      [⟨(⟨2, ![256, W]⟩ : Shape), mulf (broadcastTo (⟨2, ![256, W]⟩ : Shape) (extractStridedSlice (⟨2, ![256, 1]⟩ : Shape) ![0, 0] small h0) hb) big⟩,
       ⟨(⟨2, ![256, W]⟩ : Shape), mulf (broadcastTo (⟨2, ![256, W]⟩ : Shape) (extractStridedSlice (⟨2, ![256, 1]⟩ : Shape) ![0, 1] small h1) hb) big⟩,
       ⟨(⟨2, ![256, W]⟩ : Shape), mulf (broadcastTo (⟨2, ![256, W]⟩ : Shape) (extractStridedSlice (⟨2, ![256, 1]⟩ : Shape) ![0, 2] small h2) hb) big⟩,
       ⟨(⟨2, ![256, W]⟩ : Shape), mulf (broadcastTo (⟨2, ![256, W]⟩ : Shape) (extractStridedSlice (⟨2, ![256, 1]⟩ : Shape) ![0, 3] small h3) hb) big⟩,
       ⟨(⟨2, ![256, W]⟩ : Shape), mulf (broadcastTo (⟨2, ![256, W]⟩ : Shape) (extractStridedSlice (⟨2, ![256, 1]⟩ : Shape) ![0, 4] small h4) hb) big⟩,
       ⟨(⟨2, ![256, W]⟩ : Shape), mulf (broadcastTo (⟨2, ![256, W]⟩ : Shape) (extractStridedSlice (⟨2, ![256, 1]⟩ : Shape) ![0, 5] small h5) hb) big⟩,
       ⟨(⟨2, ![256, W]⟩ : Shape), mulf (broadcastTo (⟨2, ![256, W]⟩ : Shape) (extractStridedSlice (⟨2, ![256, 1]⟩ : Shape) ![0, 6] small h6) hb) big⟩,
       ⟨(⟨2, ![256, W]⟩ : Shape), mulf (broadcastTo (⟨2, ![256, W]⟩ : Shape) (extractStridedSlice (⟨2, ![256, 1]⟩ : Shape) ![0, 7] small h7) hb) big⟩]
      hc (ix2 r j)
      = (small (ix2 r a) : EReal) * big (ix2 r b) := by
  -- the eight slice facts as one family, so that the eight pieces are one function of the column number
  have hs : ∀ n : Fin 8, (⟨2, ![256, 8]⟩ : Shape).Slices ![0, n.val] ⟨2, ![256, 1]⟩ := fun n => match n with
    | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7
  let piece : Fin 8 → ((⟨2, ![256, W]⟩ : Shape).Idx → EReal) := fun n =>
    mulf (broadcastTo (⟨2, ![256, W]⟩ : Shape) (extractStridedSlice (⟨2, ![256, 1]⟩ : Shape) ![0, n.val] small (hs n)) hb) big
  show concatenate (⟨2, ![256, T]⟩ : Shape) 1
    (List.ofFn fun n : Fin 8 => (⟨(⟨2, ![256, W]⟩ : Shape), piece n⟩ : (s : Shape) × (s.Idx → EReal))) _ (ix2 r j) = _
  refine (concatenate_ofFn_apply (t := (⟨2, ![256, T]⟩ : Shape)) (s₁ := (⟨2, ![256, W]⟩ : Shape)) (1 : Fin 2) piece _ rfl W rfl
    (ix2 r j) a ha (ix2 r b) hb' (fun c hc' => ?_)).trans ?_
  · match c with
    | ⟨0, _⟩ => rfl
    | ⟨1, _⟩ => exact absurd rfl hc'
  · exact scaled_apply small big a (hs a) hb r b

end Idealize.ShloMosaic.OuterColumns

end
-- ==== Proof.Spec.lean ====
/-
  The product t-norm over the Cartesian product of four membership groups, as ONE function of the input array.

  A row of the input holds four groups of eight membership values: columns 0–7, 8–15, 16–23 and 24–31. The result row has
  one entry per choice `(i0, i1, i2, i3)` of one value from each group, laid out with the last group varying fastest:
  entry `j = i0 * 512 + i1 * 64 + i2 * 8 + i3` is the product of the four chosen values. So from a result column `j` the
  chosen columns of the input are `j / 512`, `8 + j / 64 % 8`, `16 + j / 8 % 8` and `24 + j % 8`.

  The product of four extended reals is written here grouped from the right, `a * (b * (c * d))`; grouped from the left,
  `((a * b) * c) * d`, it is the same number, because multiplication of extended reals is associative (with no
  condition on the factors: the convention `0 * ±∞ = 0` keeps the monoid laws).
-/
import Idealize.ShloMosaic.Lib.ValueIdx
import Idealize.ShloMosaic.PureOps.Ideal

noncomputable section

namespace Cert.TNorm

open Idealize.ShloMosaic Idealize.ShloMosaic.ValueIdx

/-- The input column of the first group's factor of result column `j`. -/
def col0 (j : Fin 4096) : Fin 32 := ⟨j.val / 512, by have := j.isLt; omega⟩
/-- The input column of the second group's factor of result column `j`. -/
def col1 (j : Fin 4096) : Fin 32 := ⟨8 + j.val / 64 % 8, by omega⟩
/-- The input column of the third group's factor of result column `j`. -/
def col2 (j : Fin 4096) : Fin 32 := ⟨16 + j.val / 8 % 8, by omega⟩
/-- The input column of the fourth group's factor of result column `j`. -/
def col3 (j : Fin 4096) : Fin 32 := ⟨24 + j.val % 8, by omega⟩

/-- The product of the four chosen membership values of row `r` for result column `j`, over any number `N` of rows. -/
def prod4 {N : Nat} (x : (⟨2, ![N, 32]⟩ : Shape).Idx → EReal) (r : Fin N) (j : Fin 4096) : EReal :=
  x (ix2 r (col0 j)) * (x (ix2 r (col1 j)) * (x (ix2 r (col2 j)) * x (ix2 r (col3 j))))

/-- THE RESULT ARRAY: entry `(r, j)` is the product of the four chosen membership values of row `r`. -/
def tnorm (x : (⟨2, ![16384, 32]⟩ : Shape).Idx → EReal) : (⟨2, ![16384, 4096]⟩ : Shape).Idx → EReal :=
  fun i => prod4 x ⟨(i 0).val, idx2_lt0 i⟩ ⟨(i 1).val, idx2_lt1 i⟩

theorem tnorm_apply (x : (⟨2, ![16384, 32]⟩ : Shape).Idx → EReal) (r : Fin 16384) (j : Fin 4096) :
    tnorm x (ix2 r j) = prod4 x r j := rfl

/-- Grouped from the left the product is the same number. -/
theorem prod4_left {N : Nat} (x : (⟨2, ![N, 32]⟩ : Shape).Idx → EReal) (r : Fin N) (j : Fin 4096) :
    ((x (ix2 r (col0 j)) * x (ix2 r (col1 j))) * x (ix2 r (col2 j))) * x (ix2 r (col3 j)) = prod4 x r j := by
  unfold prod4
  rw [mul_assoc, mul_assoc]

end Cert.TNorm

end
-- ==== Proof.KernelBlock.lean ====
/-
  What the kernel body leaves in its output block, entry by entry.

  The body loads a block of 256 rows of the input (32 columns), cuts it into the four groups of eight columns, and builds
  the output block (4096 columns) by three outer steps: the third group against the fourth (64 columns), the second group
  against that (512 columns), the first group against that (4096 columns). Reading the three steps at an index
  (`OuterColumns.outer_apply`), entry `(r, j)` of the block is
  `x (r, j / 512) * (x (r, 8 + j / 64 % 8) * (x (r, 16 + j / 8 % 8) * x (r, 24 + j % 8)))`:
  the product of the four membership values that result column `j` chooses, grouped from the right.
-/
import proofs.«123739_j71038759076547_1_alg».proof.Proof.Gen.KernelIdeal.Skeleton
import proofs.«123739_j71038759076547_1_alg».proof.Proof.LibOuterColumns
import proofs.«123739_j71038759076547_1_alg».proof.Proof.Spec

noncomputable section

namespace Cert.KernelIdeal.Block

open Cert.KernelIdeal Cert.KernelIdeal.Gen Idealize.ShloMosaic Idealize.ShloMosaic.ValueIdx
open Idealize.ShloMosaic.OuterColumns Cert.TNorm

/-- THE BODY'S STORED VALUE AT AN INDEX: entry `(r, j)` of the block the body stores is the product of the four
    membership values of row `r` of the loaded block that column `j` chooses. -/
theorem payload_apply (x0 : Vec Ideal S256x32 .f32) (r : Fin 256) (j : Fin 4096) :
    k0_pay1 (k0_pay2 x0) (k0_pay3 x0) (k0_pay4 x0) (ix2 r j) = prod4 x0 r j := by
  have hj : j.val < 4096 := j.isLt
  unfold prod4 k0_pay1 k0_pay4 k0_pay3 k0_pay2
  -- the first group against the 512 columns built so far
  refine (outer_apply 512 4096 rfl _ _ _ _ _ _ _ _ _ _ _ _ r j ⟨j.val / 512, by omega⟩ ⟨j.val % 512, by omega⟩ rfl rfl).trans ?_
  congr 1
  · exact columns_apply 0 x0 _ r _ (col0 j) (by show j.val / 512 = 0 + j.val / 512; omega)
  -- the second group against the 64 columns built so far
  refine (outer_apply 64 512 rfl _ _ _ _ _ _ _ _ _ _ _ _ r ⟨j.val % 512, by omega⟩ ⟨j.val % 512 / 64, by omega⟩
    ⟨j.val % 512 % 64, by omega⟩ rfl rfl).trans ?_
  congr 1
  · exact columns_apply 8 x0 _ r _ (col1 j) (by show 8 + j.val / 64 % 8 = 8 + j.val % 512 / 64; omega)
  -- the third group against the fourth
  refine (outer_apply 8 64 rfl _ _ _ _ _ _ _ _ _ _ _ _ r ⟨j.val % 512 % 64, by omega⟩ ⟨j.val % 512 % 64 / 8, by omega⟩
    ⟨j.val % 512 % 64 % 8, by omega⟩ rfl rfl).trans ?_
  congr 1
  · exact columns_apply 16 x0 _ r _ (col2 j) (by show 16 + j.val / 8 % 8 = 16 + j.val % 512 % 64 / 8; omega)
  · exact columns_apply 24 x0 _ r _ (col3 j) (by show 24 + j.val % 8 = 24 + j.val % 512 % 64 % 8; omega)

end Cert.KernelIdeal.Block

end
-- ==== Proof.KernelValue.lean ====
/-
  From blocks to the whole array: after the run the kernel's result array is the product t-norm of the input.

  Grid point `t` (of 64) stages rows `256 t … 256 t + 255` of the input (all 32 columns) and writes back the same rows of
  the result (all 4096 columns). What the body stores, entry `(r, j)` of the block, is the product of the four membership
  values of block row `r` that column `j` chooses (`Block.payload_apply`); block row `r` at point `t` is array row
  `256 t + r`, for the input window and the output window alike, so point `t` writes exactly block `t` of the
  specification. Row `R` of the result lies in the block of point `R / 256`, so the 64 blocks cover the array and the
  array ends holding the specification everywhere.
-/
import proofs.«123739_j71038759076547_1_alg».proof.Proof.Gen.KernelIdeal.Value
import proofs.«123739_j71038759076547_1_alg».proof.Proof.KernelBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Block
open Idealize.ShloMosaic.ValueIdx Cert.TNorm

variable (m : (ℓ : Loc nD τ sig) → Buf (Elt Ideal) ℓ) (ρ : Dev nD → PrngReg)

theorem hz : (![0, 0] : Fin 2 → Nat) = fun _ => 0 := funext fun a => by fin_cases a <;> rfl

/-- Both windows move down the rows with the grid point and never sideways: at point `t` each is at block row `t`,
    block column 0 (decided over the 64 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point `t`, as a matrix of 256 rows and 32 columns of extended reals. -/
abbrev xblk (c : Dev nD) (t : Fin cfg0.N) : Vec Ideal S256x32 .f32 := iblk m c 0 t

/-- The input array as the region finds it, as a matrix of 16384 rows and 32 columns of extended reals. -/
abbrev xarr (c : Dev nD) : S16384x32.Idx → EReal := V m c main_arg0

/-- Row `r` of the input block at point `t` is row `256 t + r` of the input array. -/
theorem xblk_apply (c : Dev nD) (t : Fin cfg0.N) (r : Fin 256) (q : Fin 32) (R : Fin 16384) (hR : R.val = t.val * 256 + r.val) :
    xblk m c t (ix2 r q) = xarr m c (ix2 R q) := by
  obtain ⟨e0, e1, -, -⟩ := idx_facts t
  show iblk m c 0 t (ix2 r q) = V m c main_arg0 (ix2 R q)
  unfold iblk
  rw [View.read_apply]
  show V m c main_arg0 _ = V m c main_arg0 _
  congr 1
  funext a
  apply Fin.ext
  match a with
  | ⟨0, _⟩ => show win0_0.index t (0 : Fin 2) * 256 + 1 * r.val = R.val; rw [e0, hR]; omega
  | ⟨1, _⟩ => show win0_0.index t (1 : Fin 2) * 32 + 1 * q.val = q.val; rw [e1]; omega

/-- So the four-factor product of block row `r` is that of array row `256 t + r`. -/
theorem prod4_xblk (c : Dev nD) (t : Fin cfg0.N) (r : Fin 256) (j : Fin 4096) (R : Fin 16384) (hR : R.val = t.val * 256 + r.val) :
    prod4 (xblk m c t) r j = prod4 (xarr m c) R j := by
  unfold prod4
  rw [xblk_apply m c t r (col0 j) R hR, xblk_apply m c t r (col1 j) R hR, xblk_apply m c t r (col2 j) R hR,
    xblk_apply m c t r (col3 j) R hR]

/-- The body's stored value at any index of the block, from its two coordinates. -/
theorem payload_at (x0 : Vec Ideal S256x32 .f32) (p : S256x4096.Idx) (r : Fin 256) (j : Fin 4096)
    (hr : (p 0).val = r.val) (hj : (p 1).val = j.val) :
    k0_pay1 (k0_pay2 x0) (k0_pay3 x0) (k0_pay4 x0) p = prod4 x0 r j := by
  have hp : p = ix2 r j := funext fun a => match a with | ⟨0, _⟩ => Fin.ext hr | ⟨1, _⟩ => Fin.ext hj
  rw [hp]
  exact payload_apply x0 r j

/-- The four-factor product depends on the row and the column only through their numbers. -/
theorem prod4_congr {N : Nat} (x : (⟨2, ![N, 32]⟩ : Shape).Idx → EReal) (r r' : Fin N) (j j' : Fin 4096)
    (hr : r.val = r'.val) (hj : j.val = j'.val) : prod4 x r j = prod4 x r' j' := by
  obtain rfl : r = r' := Fin.ext hr
  obtain rfl : j = j' := Fin.ext hj
  rfl

/-- WHAT POINT `t` WRITES BACK is block `t` of the specification of the input array. -/
theorem flushed_eq (c : Dev nD) (t : Fin cfg0.N) :
    (dats m 0 c).flushed 1 t = ((cfg0.win 1).blk t).view.read (Elt Ideal) (tnorm (xarr m c)) := by
  rw [flushed1]
  unfold out0_1
  rw [View.canon_unit_zero hz]
  simp only [View.ld_unit_zero (S := S256x32) hz]
  obtain ⟨-, -, e2, e3⟩ := idx_facts t
  have ht : t.val < 64 := t.isLt
  funext y
  have hy0 : (y 0).val < 256 := (y 0).isLt
  have hy1 : (y 1).val < 4096 := (y 1).isLt
  show k0_pay1 (k0_pay2 (xblk m c t)) (k0_pay3 (xblk m c t)) (k0_pay4 (xblk m c t)) ((win0 1).xinj (grid0.coords t) y)
    = tnorm (xarr m c) (((cfg0.win 1).blk t).view.emb y)
  refine (payload_at (xblk m c t) ((win0 1).xinj (grid0.coords t) y) ⟨(y 0).val, hy0⟩ ⟨(y 1).val, hy1⟩ rfl rfl).trans ?_
  refine (prod4_xblk m c t ⟨(y 0).val, hy0⟩ ⟨(y 1).val, hy1⟩ ⟨t.val * 256 + (y 0).val, by omega⟩ rfl).trans ?_
  unfold tnorm
  refine prod4_congr (xarr m c) _ _ _ _ ?_ ?_
  · show t.val * 256 + (y 0).val = win0_1.index t (0 : Fin 2) * 256 + 1 * (y 0).val; rw [e2]; omega
  · show (y 1).val = win0_1.index t (1 : Fin 2) * 4096 + 1 * (y 1).val; rw [e3]; omega

/-- An index of the result array is in point `t`'s block iff each coordinate is in the block's range on its axis. -/
theorem mem_blk (t : Fin cfg0.N) (i : S16384x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- THE BLOCKS COVER THE ARRAY: row `R` is written by point `R / 256`. -/
theorem cover (i : S16384x4096.Idx) :
    ∃ t : Fin cfg0.N, (cfg0.win 1).flush t = true ∧ i ∈ ((cfg0.win 1).blk t).view.set := by
  have h0 : (i 0).val < 16384 := (i 0).isLt
  have h1 : (i 1).val < 4096 := (i 1).isLt
  have hN : (i 0).val / 256 < cfg0.N := by show (i 0).val / 256 < 64; omega
  obtain ⟨-, -, e2, e3⟩ := idx_facts ⟨(i 0).val / 256, hN⟩
  refine ⟨⟨(i 0).val / 256, hN⟩, flush0_1 _, ?_⟩
  rw [mem_blk]
  intro a
  match a with
  | ⟨0, _⟩ =>
    show win0_1.index ⟨(i 0).val / 256, hN⟩ (0 : Fin 2) * 256 ≤ (i 0).val
      ∧ (i 0).val < win0_1.index ⟨(i 0).val / 256, hN⟩ (0 : Fin 2) * 256 + 256
    rw [e2]; show (i 0).val / 256 * 256 ≤ (i 0).val ∧ (i 0).val < (i 0).val / 256 * 256 + 256; omega
  | ⟨1, _⟩ =>
    show win0_1.index ⟨(i 0).val / 256, hN⟩ (1 : Fin 2) * 4096 ≤ (i 1).val
      ∧ (i 1).val < win0_1.index ⟨(i 0).val / 256, hN⟩ (1 : Fin 2) * 4096 + 4096
    rw [e3]; omega

/-- THE RESULT ARRAY after the run is the specification of the input array. -/
theorem final (c : Dev nD) : (dats m 0 c).arrAt 1 cfg0.N = tnorm (m ((c : Thread nD τ).loc main_arg0)) :=
  (dats m 0 c).arrAt_eq_of_cover 1 (tnorm (xarr m c)) (fun t _ => flushed_eq m c t) cover

/-- The run, read: the result array at the specification of the argument, the argument unchanged. -/
theorem run : θ_run defs (onTc (τ := τ) (main (F := Ideal))) ⟨m, fun _ => 0, ρ⟩ fun r => ∀ c : Dev nD,
      r.2.mem ((c : Thread nD τ).loc main_v0) = tnorm (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.Whole

end
-- ==== Proof.RefValue.lean ====
/-
  The reference computes the product t-norm.

  The reference reshapes a row of 32 membership values into four groups of eight, and folds the groups in from the left:
  it starts from the first group, and three times multiplies every entry built so far by every value of the next group,
  flattening the pair of indices with the new group's index last. After the three steps entry
  `j = ((i0 * 8 + i1) * 8 + i2) * 8 + i3` of a row holds `((x i0 * x (8 + i1)) * x (16 + i2)) * x (24 + i3)`. Reading the
  reshapes, slices and broadcasts at an index (the generated read lemmas) reduces the claim to arithmetic on the
  indices: the four factors sit at columns `j / 512`, `8 + j / 64 % 8`, `16 + j / 8 % 8` and `24 + j % 8` of the row, which
  is the specification grouped from the left.
-/
import proofs.«123739_j71038759076547_1_alg».proof.Proof.Gen.ReferenceIdeal.Read
import proofs.«123739_j71038759076547_1_alg».proof.Proof.Spec

noncomputable section

namespace Cert.ReferenceIdeal.RefValue

open Cert.ReferenceIdeal Cert.ReferenceIdeal.Read Idealize.ShloMosaic Idealize.ShloMosaic.ValueIdx Cert.TNorm

/-- Two indices of the input array with the same row and column are the same index. -/
theorem x_congr (x0 : S16384x32.Idx → EReal) (p : S16384x32.Idx) (r : Fin 16384) (q : Fin 32)
    (h0 : (p 0).val = r.val) (h1 : (p 1).val = q.val) : x0 p = x0 (ix2 r q) :=
  congrArg x0 (funext fun a => match a with | ⟨0, _⟩ => Fin.ext h0 | ⟨1, _⟩ => Fin.ext h1)

/-- THE REFERENCE'S LAST STAGE IS THE SPECIFICATION: index by index, the three left-to-right outer steps leave the
    product of the four chosen membership values. -/
theorem result_eq (x0 : (⟨S16384x32, .f32⟩ : BufTy).Contents (Elt Ideal)) :
    val_main_v26 (F := Ideal) x0 = tnorm x0 := by
  funext i
  have h0 : (i 0).val < 16384 := (i 0).isLt
  have h1 : (i 1).val < 4096 := (i 1).isLt
  show _ = prod4 x0 ⟨(i 0).val, h0⟩ ⟨(i 1).val, h1⟩
  rw [← prod4_left]
  simp only [val_main_v26_apply, val_main_v25_apply, val_main_v24_apply, val_main_v23_apply, val_main_v22_apply,
    val_main_v21_apply, val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, Ideal.mulf_def]
  congr 1
  · congr 1
    · congr 1
      · refine x_congr x0 _ ⟨(i 0).val, h0⟩ (col0 ⟨(i 1).val, h1⟩) ?_ ?_
        · show _ = (i 0).val; dsimp only; omega
        · show _ = (i 1).val / 512; dsimp only; omega
      · refine x_congr x0 _ ⟨(i 0).val, h0⟩ (col1 ⟨(i 1).val, h1⟩) ?_ ?_
        · show _ = (i 0).val; dsimp only; omega
        · show _ = 8 + (i 1).val / 64 % 8; dsimp only; omega
    · refine x_congr x0 _ ⟨(i 0).val, h0⟩ (col2 ⟨(i 1).val, h1⟩) ?_ ?_
      · show _ = (i 0).val; dsimp only; omega
      · show _ = 16 + (i 1).val / 8 % 8; dsimp only; omega
  · refine x_congr x0 _ ⟨(i 0).val, h0⟩ (col3 ⟨(i 1).val, h1⟩) ?_ ?_
    · show _ = (i 0).val; dsimp only; omega
    · show _ = 24 + (i 1).val % 8; dsimp only; omega

end Cert.ReferenceIdeal.RefValue

end
-- ==== Proof.lean ====
/-
  The product t-norm kernel against its reference: equal results over the extended reals.

  A row of the input holds four groups of eight membership values. Both programs produce, for every row, one entry per
  choice of one value from each group (4096 entries, the last group varying fastest): the product of the four chosen
  values.

  The kernel works on blocks of 256 rows. It builds the block of results from the right: the third group against the
  fourth, the second group against that, the first group against that; each step lays eight scaled copies side by side,
  so entry `j` of a row is `x (j / 512) * (x (8 + j / 64 % 8) * (x (16 + j / 8 % 8) * x (24 + j % 8)))`
  (Proof/LibOuterColumns.lean, Proof/KernelBlock.lean). The 64 blocks tile the result array, so the array ends holding
  that function of the input everywhere (Proof/KernelValue.lean).

  The reference builds the same entries from the left, `((x (j / 512) * x (8 + j / 64 % 8)) * x (16 + j / 8 % 8)) *
  x (24 + j % 8)`, through reshapes and broadcasts (Proof/RefValue.lean).

  The two groupings are the same number because multiplication of extended reals is associative, with no condition on
  the factors (Proof/Spec.lean); so the finiteness of the input is never used. The three frames are the generated ones
  (the reference's is its generated run with the result dropped), and the idealization rewrote nothing, so `preserves`
  is trivial.
-/
import proofs.«123739_j71038759076547_1_alg».proof.Defs
import proofs.«123739_j71038759076547_1_alg».proof.Proof.Gen.Kernel
import proofs.«123739_j71038759076547_1_alg».proof.Proof.Gen.Kernel.Frame
import proofs.«123739_j71038759076547_1_alg».proof.Proof.Gen.KernelIdeal
import proofs.«123739_j71038759076547_1_alg».proof.Proof.Gen.KernelIdeal.Frame
import proofs.«123739_j71038759076547_1_alg».proof.Proof.Gen.ReferenceIdeal
import proofs.«123739_j71038759076547_1_alg».proof.Proof.Gen.Pre_finite_inputs
import proofs.«123739_j71038759076547_1_alg».proof.Proof.Gen.KernelIdeal.Value
import proofs.«123739_j71038759076547_1_alg».proof.Proof.Gen.ReferenceIdeal.Run
import proofs.«123739_j71038759076547_1_alg».proof.Proof.Gen.ReferenceIdeal.Read
import proofs.«123739_j71038759076547_1_alg».proof.Proof.KernelValue
import proofs.«123739_j71038759076547_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- The idealized kernel runs and leaves its argument unchanged. -/
theorem frame_kernelIdeal : Cert.frame_KernelIdeal := fun m ρ _ => Cert.KernelIdeal.Gen.frame m ρ

/-- The idealized reference runs and leaves its argument unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the input, both programs end with the product t-norm of the input in their result array:
    the kernel by its 64 blocks, the reference by its three outer steps read at an index, the two groupings of the
    four-factor product being one number. -/
theorem algebraic : Cert.algebraic_KernelIdeal_ReferenceIdeal := by
  intro m ρ m' ρ' _ hagree
  refine ⟨fun c => Cert.TNorm.tnorm (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
